-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x4 : Shape := ⟨3, ![64, 512, 4]⟩
abbrev S1024x2 : Shape := ⟨2, ![1024, 2]⟩
abbrev S_ : Shape := ⟨0, ![]⟩

class Facts : Prop where
  bcast_S_S64x512x4 : S_.BroadcastsInDim S64x512x4 (![] : Fin 0 → Fin S64x512x4.rank)
  reducesTo_S64x512x4_S_d0_1_2 : S64x512x4.ReducesTo [0, 1, 2] S_
  h_S_ : 0 < S_.numel
  bcast_S_S1024x2 : S_.BroadcastsInDim S1024x2 (![] : Fin 0 → Fin S1024x2.rank)
  reducesTo_S1024x2_S_d0_1 : S1024x2.ReducesTo [0, 1] S_

variable [Facts]

def fn {F : FTy → Type} [FloatOps F] (main_arg0 : FVec F S64x512x4 .f32) (main_arg1 : FVec F S1024x2 .f32) : IVec S_ 1 :=
  let main_v0 : FVec F S64x512x4 .f32 := Host.absf main_arg0
  let main_cst : FVec F S_ .f32 := constant S_ .f32 0x7F800000#32
  let main_v1 : FVec F S64x512x4 .f32 := broadcastInDim S64x512x4 ![] bcast_S_S64x512x4 main_cst
  let main_v2 : IVec S64x512x4 1 := cmpf .olt main_v0 main_v1
  let main_c : IVec S_ 1 := constantI S_ 1 1#1
  let main_v3 : IVec S_ 1 := (fun x v => Host.reduce IntOp.andi x v reducesTo_S64x512x4_S_d0_1_2 h_S_) main_v2 main_c
  let main_v4 : FVec F S1024x2 .f32 := Host.absf main_arg1
  let main_cst_0 : FVec F S_ .f32 := constant S_ .f32 0x7F800000#32
  let main_v5 : FVec F S1024x2 .f32 := broadcastInDim S1024x2 ![] bcast_S_S1024x2 main_cst_0
  let main_v6 : IVec S1024x2 1 := cmpf .olt main_v4 main_v5
  let main_c_1 : IVec S_ 1 := constantI S_ 1 1#1
  let main_v7 : IVec S_ 1 := (fun x v => Host.reduce IntOp.andi x v reducesTo_S1024x2_S_d0_1 h_S_) main_v6 main_c_1
  let main_v8 : IVec S_ 1 := andi main_v3 main_v7
  main_v8
-- ==== Kernel.lean ====
abbrev S64x512x4 : Shape := ⟨3, ![64, 512, 4]⟩
abbrev S1024x2 : Shape := ⟨2, ![1024, 2]⟩
abbrev S1x2 : Shape := ⟨2, ![1, 2]⟩
abbrev S2 : Shape := ⟨1, ![2]⟩
abbrev S_ : Shape := ⟨0, ![]⟩
abbrev S1023x2 : Shape := ⟨2, ![1023, 2]⟩
abbrev S1023 : Shape := ⟨1, ![1023]⟩
abbrev S1024 : Shape := ⟨1, ![1024]⟩
abbrev S1024x1 : Shape := ⟨2, ![1024, 1]⟩
abbrev S64x512 : Shape := ⟨2, ![64, 512]⟩
abbrev S8x512x4 : Shape := ⟨3, ![8, 512, 4]⟩
abbrev S256x2 : Shape := ⟨2, ![256, 2]⟩
abbrev S8x512 : Shape := ⟨2, ![8, 512]⟩
abbrev S8x512x1 : Shape := ⟨3, ![8, 512, 1]⟩
abbrev S256x1 : Shape := ⟨2, ![256, 1]⟩
abbrev S256 : Shape := ⟨1, ![256]⟩
abbrev S1x1x256 : Shape := ⟨3, ![1, 1, 256]⟩
abbrev S8x512x256 : Shape := ⟨3, ![8, 512, 256]⟩
abbrev S64x511 : Shape := ⟨2, ![64, 511]⟩
abbrev S64 : Shape := ⟨1, ![64]⟩

abbrev nBuf : Space → Nat
  | .hbm => 77
  | .vmem => 7
  | .smem => 0
  | _ => 0

abbrev bufTy : (tb : Table) → Fin (tcTables nBuf tb) → BufTy
  | .hbm, ⟨0, _⟩ => ⟨S64x512x4, .f32⟩
  | .hbm, ⟨1, _⟩ => ⟨S1024x2, .f32⟩
  | .hbm, ⟨2, _⟩ => ⟨S1x2, .f32⟩
  | .hbm, ⟨3, _⟩ => ⟨S2, .f32⟩
  | .hbm, ⟨4, _⟩ => ⟨S2, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1023x2, .f32⟩
  | .hbm, ⟨9, _⟩ => ⟨S1023x2, .f32⟩
  | .hbm, ⟨10, _⟩ => ⟨S1023x2, .f32⟩
  | .hbm, ⟨11, _⟩ => ⟨S1023x2, .f32⟩
  | .hbm, ⟨12, _⟩ => ⟨S_, .f32⟩
  | .hbm, ⟨13, _⟩ => ⟨S1023, .f32⟩
  | .hbm, ⟨14, _⟩ => ⟨S1023, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .i32⟩
  | .hbm, ⟨24, _⟩ => ⟨S1024, .i32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .f32⟩
  | .hbm, ⟨32, _⟩ => ⟨S1024x1, .f32⟩
  | .hbm, ⟨33, _⟩ => ⟨S1x2, .f32⟩
  | .hbm, ⟨34, _⟩ => ⟨S2, .f32⟩
  | .hbm, ⟨35, _⟩ => ⟨S1x2, .f32⟩
  | .hbm, ⟨36, _⟩ => ⟨S1024x2, .f32⟩
  | .hbm, ⟨37, _⟩ => ⟨S1024x2, .f32⟩
  | .hbm, ⟨38, _⟩ => ⟨S1024x2, .f32⟩
  | .hbm, ⟨39, _⟩ => ⟨S1024x2, .f32⟩
  | .hbm, ⟨40, _⟩ => ⟨S1024x2, .f32⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S_, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S1024x1, .i32⟩
  | .hbm, ⟨59, _⟩ => ⟨S1024x2, .f32⟩
  | .hbm, ⟨60, _⟩ => ⟨S1024, .i32⟩
  | .hbm, ⟨61, _⟩ => ⟨S1024, .i1⟩
  | .hbm, ⟨62, _⟩ => ⟨S1024x1, .i1⟩
  | .hbm, ⟨63, _⟩ => ⟨S1024x2, .i1⟩
  | .hbm, ⟨64, _⟩ => ⟨S1024x2, .f32⟩
  | .hbm, ⟨65, _⟩ => ⟨S_, .i32⟩
  | .hbm, ⟨66, _⟩ => ⟨S_, .i1⟩
  | .hbm, ⟨67, _⟩ => ⟨S1024x2, .f32⟩
  | .hbm, ⟨68, _⟩ => ⟨S64x512, .f32⟩
  | .hbm, ⟨69, _⟩ => ⟨S64x511, .f32⟩
  | .hbm, ⟨70, _⟩ => ⟨S_, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S_, .f32⟩
  | .hbm, ⟨76, _⟩ => ⟨S_, .f32⟩
  | .local _ .vmem, ⟨0, _⟩ => ⟨S8x512x4, .f32⟩
  | .local _ .vmem, ⟨1, _⟩ => ⟨S8x512x4, .f32⟩
  | .local _ .vmem, ⟨2, _⟩ => ⟨S256x2, .f32⟩
  | .local _ .vmem, ⟨3, _⟩ => ⟨S256x2, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | _, _ => ⟨S64x512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_c_4 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call3_v0 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_9 : BitVec 32 := 0#32
  let v35 : BitVec 1 := Scalar.cmpi .ne v34 c0_i32_9
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S1024x2_S1x2_0_0 : S1024x2.Slices ![0, 0] S1x2
  shapeCasts_S1x2_S2 : S1x2.ShapeCasts S2
  reducesTo_S2_S_d0 : S2.ReducesTo [0] S_
  h_S_ : 0 < S_.numel
  slices_S1024x2_S1023x2_1_0 : S1024x2.Slices ![1, 0] S1023x2
  slices_S1024x2_S1023x2_0_0 : S1024x2.Slices ![0, 0] S1023x2
  reducesTo_S1023x2_S1023_d1 : S1023x2.ReducesTo [1] S1023
  reducesTo_S1023_S_d0 : S1023.ReducesTo [0] S_
  bcast_S_S1024 : S_.BroadcastsInDim S1024 (![] : Fin 0 → Fin S1024.rank)
  bcast_S1024_S1024x1_0 : S1024.BroadcastsInDim S1024x1 (![0] : Fin 1 → Fin S1024x1.rank)
  bcast_S2_S1x2_1 : S2.BroadcastsInDim S1x2 (![1] : Fin 1 → Fin S1x2.rank)
  bcast_S1024x1_S1024x2_0_1 : S1024x1.BroadcastsInDim S1024x2 (![0, 1] : Fin 2 → Fin S1024x2.rank)
  bcast_S1x2_S1024x2_0_1 : S1x2.BroadcastsInDim S1024x2 (![0, 1] : Fin 2 → Fin S1024x2.rank)
  bcast_S_S1024x2 : S_.BroadcastsInDim S1024x2 (![] : Fin 0 → Fin S1024x2.rank)
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x4_S8x512x4_0_0_0 : ∀ a, (![0, 0, 0] : Fin 3 → Nat) a + S8x512x4.size a ≤ S8x512x4.size a
  h_S8x512x4 : 0 < S8x512x4.numel
  inb_S256x2_S256x2_0_0 : ∀ a, (![0, 0] : Fin 2 → Nat) a + S256x2.size a ≤ S256x2.size a
  h_S256x2 : 0 < S256x2.numel
  shapeCasts_S256x2_S256x2 : S256x2.ShapeCasts S256x2
  slices_S8x512x4_o0_0_0_S8x512x1 : S8x512x4.Slices ![0, 0, 0] S8x512x1
  shapeCasts_S8x512x1_S8x512 : S8x512x1.ShapeCasts S8x512
  slices_S8x512x4_o0_0_1_S8x512x1 : S8x512x4.Slices ![0, 0, 1] S8x512x1
  slices_S256x2_o0_0_S256x1 : S256x2.Slices ![0, 0] S256x1
  shapeCasts_S256x1_S256 : S256x1.ShapeCasts S256
  slices_S256x2_o0_1_S256x1 : S256x2.Slices ![0, 1] S256x1
  shapeCasts_S8x512_S8x512x1 : S8x512.ShapeCasts S8x512x1
  shapeCasts_S256_S1x1x256 : S256.ShapeCasts S1x1x256
  broadcasts_S8x512x1_S8x512x256 : S8x512x1.Broadcasts S8x512x256
  broadcasts_S1x1x256_S8x512x256 : S1x1x256.Broadcasts S8x512x256
  reduces_S8x512x256_S8x512 : S8x512x256.Reduces [2] S8x512
  slices_S64x512_S64x511_0_1 : S64x512.Slices ![0, 1] S64x511
  reducesTo_S64x511_S64_d1 : S64x511.ReducesTo [1] S64
  bcast_S_S64 : S_.BroadcastsInDim S64 (![] : Fin 0 → Fin S64.rank)
  reducesTo_S64_S_d0 : S64.ReducesTo [0] S_
  gather_S1024x2_S1024x1_S1024x2_1_0_n_n_0_1_12_wf : GatherDims.WF S1024x2 S1024x1 S1024x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x4.size a ≤ S64x512x4.size a
  hwx0_0 : ∀ i : grid0.Coords, EltTy.bits .f32 = 32 ∨ (Rect.block (s := S64x512x4) S8x512x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S1024x2.size a
  hwx0_1 : ∀ i : grid0.Coords, EltTy.bits .f32 = 32 ∨ (Rect.block (s := S1024x2) S256x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S64x512.size a
  hwx0_2 : ∀ i : grid0.Coords, EltTy.bits .f32 = 32 ∨ (Rect.block (s := S64x512) S8x512.size (cc0_transform_2 i) (hinb0_2 i)).WholeWords (EltTy.packing .f32)

variable [Facts₀]

def gather_S1024x2_S1024x1_S1024x2_1_0_n_n_0_1_12 : GatherDims S1024x2 S1024x1 S1024x2 where
  offsetDims := [1]
  collapsedSliceDims := [0]
  operandBatchingDims := []
  startIndicesBatchingDims := []
  startIndexMap := [0]
  indexVectorDim := 1
  sliceSizes := ![1, 2]
  wf := gather_S1024x2_S1024x1_S1024x2_1_0_n_n_0_1_12_wf

abbrev win0_0 : Pipeline.Window sig grid0 :=
  Pipeline.Window.ofSpec (Memref.whole main_arg0) S8x512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x512x4 : Shape := ⟨3, ![64, 512, 4]⟩
abbrev S1024x2 : Shape := ⟨2, ![1024, 2]⟩
abbrev S1x2 : Shape := ⟨2, ![1, 2]⟩
abbrev S2 : Shape := ⟨1, ![2]⟩
abbrev S_ : Shape := ⟨0, ![]⟩
abbrev S1023x2 : Shape := ⟨2, ![1023, 2]⟩
abbrev S1023 : Shape := ⟨1, ![1023]⟩
abbrev S1024 : Shape := ⟨1, ![1024]⟩
abbrev S1024x1 : Shape := ⟨2, ![1024, 1]⟩
abbrev S64x512x2 : Shape := ⟨3, ![64, 512, 2]⟩
abbrev S64x512x1x2 : Shape := ⟨4, ![64, 512, 1, 2]⟩
abbrev S1x1x1024x2 : Shape := ⟨4, ![1, 1, 1024, 2]⟩
abbrev S64x512x1024x2 : Shape := ⟨4, ![64, 512, 1024, 2]⟩
abbrev S64x512x1024 : Shape := ⟨3, ![64, 512, 1024]⟩
abbrev S64x512 : Shape := ⟨2, ![64, 512]⟩
abbrev S64x511 : Shape := ⟨2, ![64, 511]⟩
abbrev S64 : Shape := ⟨1, ![64]⟩

abbrev nBuf : Space → Nat
  | .hbm => 87
  | .vmem => 0
  | .smem => 0
  | _ => 0

abbrev bufTy : (tb : Table) → Fin (tcTables nBuf tb) → BufTy
  | .hbm, ⟨0, _⟩ => ⟨S64x512x4, .f32⟩
  | .hbm, ⟨1, _⟩ => ⟨S1024x2, .f32⟩
  | .hbm, ⟨2, _⟩ => ⟨S1x2, .f32⟩
  | .hbm, ⟨3, _⟩ => ⟨S2, .f32⟩
  | .hbm, ⟨4, _⟩ => ⟨S2, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1023x2, .f32⟩
  | .hbm, ⟨9, _⟩ => ⟨S1023x2, .f32⟩
  | .hbm, ⟨10, _⟩ => ⟨S1023x2, .f32⟩
  | .hbm, ⟨11, _⟩ => ⟨S1023x2, .f32⟩
  | .hbm, ⟨12, _⟩ => ⟨S_, .f32⟩
  | .hbm, ⟨13, _⟩ => ⟨S1023, .f32⟩
  | .hbm, ⟨14, _⟩ => ⟨S1023, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .i32⟩
  | .hbm, ⟨24, _⟩ => ⟨S1024, .i32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .f32⟩
  | .hbm, ⟨32, _⟩ => ⟨S1024x1, .f32⟩
  | .hbm, ⟨33, _⟩ => ⟨S1x2, .f32⟩
  | .hbm, ⟨34, _⟩ => ⟨S2, .f32⟩
  | .hbm, ⟨35, _⟩ => ⟨S1x2, .f32⟩
  | .hbm, ⟨36, _⟩ => ⟨S1024x2, .f32⟩
  | .hbm, ⟨37, _⟩ => ⟨S1024x2, .f32⟩
  | .hbm, ⟨38, _⟩ => ⟨S1024x2, .f32⟩
  | .hbm, ⟨39, _⟩ => ⟨S1024x2, .f32⟩
  | .hbm, ⟨40, _⟩ => ⟨S1024x2, .f32⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S_, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S1024x1, .i32⟩
  | .hbm, ⟨59, _⟩ => ⟨S1024x2, .f32⟩
  | .hbm, ⟨60, _⟩ => ⟨S1024, .i32⟩
  | .hbm, ⟨61, _⟩ => ⟨S1024, .i1⟩
  | .hbm, ⟨62, _⟩ => ⟨S1024x1, .i1⟩
  | .hbm, ⟨63, _⟩ => ⟨S1024x2, .i1⟩
  | .hbm, ⟨64, _⟩ => ⟨S1024x2, .f32⟩
  | .hbm, ⟨65, _⟩ => ⟨S_, .i32⟩
  | .hbm, ⟨66, _⟩ => ⟨S_, .i1⟩
  | .hbm, ⟨67, _⟩ => ⟨S1024x2, .f32⟩
  | .hbm, ⟨68, _⟩ => ⟨S64x512x2, .f32⟩
  | .hbm, ⟨69, _⟩ => ⟨S64x512x1x2, .f32⟩
  | .hbm, ⟨70, _⟩ => ⟨S1x1x1024x2, .f32⟩
  | .hbm, ⟨71, _⟩ => ⟨S64x512x1024x2, .f32⟩
  | .hbm, ⟨72, _⟩ => ⟨S64x512x1024x2, .f32⟩
  | .hbm, ⟨73, _⟩ => ⟨S64x512x1024x2, .f32⟩
  | .hbm, ⟨74, _⟩ => ⟨S64x512x1024x2, .f32⟩
  | .hbm, ⟨75, _⟩ => ⟨S_, .f32⟩
  | .hbm, ⟨76, _⟩ => ⟨S64x512x1024, .f32⟩
  | .hbm, ⟨77, _⟩ => ⟨S_, .f32⟩
  | .hbm, ⟨78, _⟩ => ⟨S64x512, .f32⟩
  | .hbm, ⟨79, _⟩ => ⟨S64x511, .f32⟩
  | .hbm, ⟨80, _⟩ => ⟨S_, .f32⟩
  | .hbm, ⟨81, _⟩ => ⟨S64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S_, .f32⟩
  | .hbm, ⟨86, _⟩ => ⟨S_, .f32⟩
  | _, _ => ⟨S64x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_c_4 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call3_v0 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩

abbrev nD : Nat := 1
abbrev τ : Topo := Topo.v7x

variable {F : FTy → Type} [FloatOps F]

class Facts₀ : Prop where
  slices_S1024x2_S1x2_0_0 : S1024x2.Slices ![0, 0] S1x2
  shapeCasts_S1x2_S2 : S1x2.ShapeCasts S2
  reducesTo_S2_S_d0 : S2.ReducesTo [0] S_
  h_S_ : 0 < S_.numel
  slices_S1024x2_S1023x2_1_0 : S1024x2.Slices ![1, 0] S1023x2
  slices_S1024x2_S1023x2_0_0 : S1024x2.Slices ![0, 0] S1023x2
  reducesTo_S1023x2_S1023_d1 : S1023x2.ReducesTo [1] S1023
  reducesTo_S1023_S_d0 : S1023.ReducesTo [0] S_
  bcast_S_S1024 : S_.BroadcastsInDim S1024 (![] : Fin 0 → Fin S1024.rank)
  bcast_S1024_S1024x1_0 : S1024.BroadcastsInDim S1024x1 (![0] : Fin 1 → Fin S1024x1.rank)
  bcast_S2_S1x2_1 : S2.BroadcastsInDim S1x2 (![1] : Fin 1 → Fin S1x2.rank)
  bcast_S1024x1_S1024x2_0_1 : S1024x1.BroadcastsInDim S1024x2 (![0, 1] : Fin 2 → Fin S1024x2.rank)
  bcast_S1x2_S1024x2_0_1 : S1x2.BroadcastsInDim S1024x2 (![0, 1] : Fin 2 → Fin S1024x2.rank)
  bcast_S_S1024x2 : S_.BroadcastsInDim S1024x2 (![] : Fin 0 → Fin S1024x2.rank)
  slices_S64x512x4_S64x512x2_0_0_0 : S64x512x4.Slices ![0, 0, 0] S64x512x2
  bcast_S64x512x2_S64x512x1x2_0_1_3 : S64x512x2.BroadcastsInDim S64x512x1x2 (![0, 1, 3] : Fin 3 → Fin S64x512x1x2.rank)
  bcast_S1024x2_S1x1x1024x2_2_3 : S1024x2.BroadcastsInDim S1x1x1024x2 (![2, 3] : Fin 2 → Fin S1x1x1024x2.rank)
  bcast_S64x512x1x2_S64x512x1024x2_0_1_2_3 : S64x512x1x2.BroadcastsInDim S64x512x1024x2 (![0, 1, 2, 3] : Fin 4 → Fin S64x512x1024x2.rank)
  bcast_S1x1x1024x2_S64x512x1024x2_0_1_2_3 : S1x1x1024x2.BroadcastsInDim S64x512x1024x2 (![0, 1, 2, 3] : Fin 4 → Fin S64x512x1024x2.rank)
  reducesTo_S64x512x1024x2_S64x512x1024_d3 : S64x512x1024x2.ReducesTo [3] S64x512x1024
  reducesTo_S64x512x1024_S64x512_d2 : S64x512x1024.ReducesTo [2] S64x512
  slices_S64x512_S64x511_0_1 : S64x512.Slices ![0, 1] S64x511
  reducesTo_S64x511_S64_d1 : S64x511.ReducesTo [1] S64
  bcast_S_S64 : S_.BroadcastsInDim S64 (![] : Fin 0 → Fin S64.rank)
  reducesTo_S64_S_d0 : S64.ReducesTo [0] S_
  gather_S1024x2_S1024x1_S1024x2_1_0_n_n_0_1_12_wf : GatherDims.WF S1024x2 S1024x1 S1024x2 [1] [0] [] [0] [] 1 ![1, 2]

variable [Facts₀]

def gather_S1024x2_S1024x1_S1024x2_1_0_n_n_0_1_12 : GatherDims S1024x2 S1024x1 S1024x2 where
  offsetDims := [1]
  collapsedSliceDims := [0]
  operandBatchingDims := []
  startIndicesBatchingDims := []
  startIndexMap := [0]
  indexVectorDim := 1
  sliceSizes := ![1, 2]
  wf := gather_S1024x2_S1024x1_S1024x2_1_0_n_n_0_1_12_wf

class Facts : Prop extends Facts₀ where

variable [Facts]
-- ==== Proof.Pieces.lean ====
/-
  What one grid point of the kernel leaves behind, as values.

  The kernel body keeps a running minimum in a scratch block of shape [8, 512]. At a point it may first reset the
  scratch to +∞ (first target block of a row group), then always replaces the scratch by
      update(points, targets, scratch) = min(scratch, least squared distance to this block's 256 targets),
  and at the last target block of a row group copies the scratch to the output block. The body's run is stated as a
  list of stored pieces; here each list is read back as one value:
    * after a resetting point the scratch is update(points, targets, +∞ block);
    * after any other point it is update(points, targets, previous scratch);
    * at a copying point the output block is that same updated scratch.
  All of this is independent of the float instance.
-/
import proofs.«160160_j43971875176871_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- The zero offsets of a rank-2 and of a rank-3 whole-block access. -/
theorem zero2 : (![0, 0] : Fin 2 → Nat) = fun _ => 0 := funext fun a => by fin_cases a <;> rfl
theorem zero3 : (![0, 0, 0] : Fin 3 → Nat) = fun _ => 0 := funext fun a => by fin_cases a <;> rfl

/-- A point that neither resets nor copies: the scratch ends at the update of what it held. -/
theorem scratch_mid (c : Dev nD) (i : grid0.Coords) (a2 : Memref sig .tc .vmem S8x512x4 .f32) (h2 : a2.IsWhole)
    (a3 : Memref sig .tc .vmem S256x2 .f32) (h3 : a3.IsWhole) (a4 : Memref sig .tc .vmem S8x512 .f32) (h4 : a4.IsWhole)
    (a5 : Memref sig .tc .vmem S8x512 .f32) (h5 : a5.IsWhole) (hc0 : ¬cond0_0 i) (hc1 : ¬cond0_1 i)
    (x0 : Vec F S8x512x4 .f32) (x1 : Vec F S256x2 .f32) (xs0 : Vec F S8x512 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero zero2]
  simp only [View.readAt_eq_ld, h2.read_unread, h3.read_unread, h5.read_unread, View.ld_unit_zero (S := S8x512x4) zero3,
    View.ld_unit_zero (S := S256x2) zero2, View.ld_unit_zero (S := S8x512) zero2]

/-- A resetting point: the scratch is first set to the +∞ block, which the update then reads back. -/
theorem scratch_first (c : Dev nD) (i : grid0.Coords) (a2 : Memref sig .tc .vmem S8x512x4 .f32) (h2 : a2.IsWhole)
    (a3 : Memref sig .tc .vmem S256x2 .f32) (h3 : a3.IsWhole) (a4 : Memref sig .tc .vmem S8x512 .f32) (h4 : a4.IsWhole)
    (a5 : Memref sig .tc .vmem S8x512 .f32) (h5 : a5.IsWhole) (hc0 : cond0_0 i) (hc1 : ¬cond0_1 i)
    (x0 : Vec F S8x512x4 .f32) (x1 : Vec F S256x2 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S8x512) zero2, View.readCov_unit_zero (S := S8x512) _ zero2]
  simp only [View.readAt_eq_ld, h2.read_unread, h3.read_unread, View.ld_unit_zero (S := S8x512x4) zero3,
    View.ld_unit_zero (S := S256x2) zero2, View.ld_unit_zero (S := S8x512) zero2]

/-- A copying point: the scratch ends at the update of what it held, -/
theorem scratch_last (c : Dev nD) (i : grid0.Coords) (a2 : Memref sig .tc .vmem S8x512x4 .f32) (h2 : a2.IsWhole)
    (a3 : Memref sig .tc .vmem S256x2 .f32) (h3 : a3.IsWhole) (a4 : Memref sig .tc .vmem S8x512 .f32) (h4 : a4.IsWhole)
    (a5 : Memref sig .tc .vmem S8x512 .f32) (h5 : a5.IsWhole) (hc0 : ¬cond0_0 i) (hc1 : cond0_1 i)
    (x0 : Vec F S8x512x4 .f32) (x1 : Vec F S256x2 .f32) (xs0 : Vec F S8x512 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero zero2]
  simp only [View.readAt_eq_ld, h2.read_unread, h3.read_unread, h5.read_unread, View.ld_unit_zero (S := S8x512x4) zero3,
    View.ld_unit_zero (S := S256x2) zero2, View.ld_unit_zero (S := S8x512) zero2]

/-- and the output block receives that same value (the scratch read back after the update). -/
theorem out_last (c : Dev nD) (i : grid0.Coords) (a2 : Memref sig .tc .vmem S8x512x4 .f32) (h2 : a2.IsWhole)
    (a3 : Memref sig .tc .vmem S256x2 .f32) (h3 : a3.IsWhole) (a4 : Memref sig .tc .vmem S8x512 .f32) (h4 : a4.IsWhole)
    (a5 : Memref sig .tc .vmem S8x512 .f32) (h5 : a5.IsWhole) (hc0 : ¬cond0_0 i) (hc1 : cond0_1 i)
    (x0 : Vec F S8x512x4 .f32) (x1 : Vec F S256x2 .f32) (xs0 : Vec F S8x512 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero zero2]
  simp only [View.readAt_eq_ld, h2.read_unread, h3.read_unread, h5.read_unread, View.ld_unit_zero (S := S8x512x4) zero3,
    View.ld_unit_zero (S := S256x2) zero2, View.ld_unit_zero (S := S8x512) zero2, View.readCov_unit_zero (S := S8x512) _ zero2]

end Cert.KernelIdeal.Acc

end
-- ==== Proof.NearestMin.lean ====
/-
  The nearest-point squared distance, as a function of the two arrays, and the one law the certificate rests on.

  For a point array `X` of shape [64, 512, 4] (only the first two of the four trailing entries are coordinates) and a
  target array `T` of shape [1024, 2], the squared distance from point (p, q) to target k is
      (X[p,q,0] - T[k,0])² + (X[p,q,1] - T[k,1])²
  and the quantity both programs compute at (p, q) is its least value over the 1024 targets, taken from the top
  element of the extended reals. One program takes that minimum over all targets at once; the other visits the targets
  256 at a time and keeps a running minimum. The two agree because a minimum over an initial segment of the targets,
  extended by the next block of targets, is the minimum of the two partial minima: this is a statement about the
  order alone (idempotent, commutative, associative), so it holds at every extended real, infinite ones included.
-/
import Idealize.ShloMosaic.PureOps.Ideal
import Idealize.ShloMosaic.Lib.ValueIdx

noncomputable section

namespace Cert.NearestMin

open Idealize.ShloMosaic Idealize.ShloMosaic.ValueIdx

/-! ## A minimum over an initial segment of indices -/

/-- The least value of `f` over the indices below `n`, folded from the top element. -/
def minBelow {N : ℕ} (f : Fin N → EReal) (n : ℕ) : EReal :=
  (Finset.univ.filter fun k : Fin N => k.val < n).fold min ⊤ f

/-- Its universal property: the lower bounds of `minBelow f n` are the common lower bounds of `f` below `n`. -/
theorem le_minBelow_iff {N : ℕ} (f : Fin N → EReal) (n : ℕ) (c : EReal) :
    c ≤ minBelow f n ↔ ∀ k : Fin N, k.val < n → c ≤ f k := by
  unfold minBelow
  rw [Finset.le_fold_min]
  constructor
  · intro h k hk
    exact h.2 k (Finset.mem_filter.2 ⟨Finset.mem_univ k, hk⟩)
  · intro h
    exact ⟨le_top, fun k hk => h k (Finset.mem_filter.1 hk).2⟩

/-- Over no index at all the minimum is the top element. -/
theorem minBelow_zero {N : ℕ} (f : Fin N → EReal) : minBelow f 0 = ⊤ :=
  top_le_iff.1 ((le_minBelow_iff f 0 ⊤).2 fun k hk => absurd hk (Nat.not_lt_zero _))

/-- Over every index it is the fold over the whole index type. -/
theorem minBelow_all {N : ℕ} (f : Fin N → EReal) : minBelow f N = Finset.univ.fold min ⊤ f := by
  refine eq_of_forall_le_iff fun c => ?_
  rw [le_minBelow_iff, Finset.le_fold_min]
  constructor
  · intro h
    exact ⟨le_top, fun k _ => h k k.isLt⟩
  · intro h k _
    exact h.2 k (Finset.mem_univ k)

/-- THE LAW. Extending the segment by a block of `B` further indices takes the minimum of the segment's minimum and the
    block's own minimum (itself folded from the top element). -/
theorem minBelow_add {N B : ℕ} (f : Fin N → EReal) (n : ℕ) (hn : n + B ≤ N) :
    minBelow f (n + B)
      = min (minBelow f n) (Finset.univ.fold min ⊤ fun l : Fin B => f ⟨n + l.val, by have := l.isLt; omega⟩) := by
  refine eq_of_forall_le_iff fun c => ?_
  rw [le_min_iff, le_minBelow_iff, le_minBelow_iff, Finset.le_fold_min]
  constructor
  · intro h
    refine ⟨fun k hk => h k (by omega), le_top, fun l _ => h _ ?_⟩
    show n + l.val < n + B
    have := l.isLt; omega
  · rintro ⟨h1, -, h2⟩ k hk
    by_cases hlt : k.val < n
    · exact h1 k hlt
    · have hb : k.val - n < B := by omega
      have e : (⟨n + (⟨k.val - n, hb⟩ : Fin B).val, by have := k.isLt; show n + (k.val - n) < N; omega⟩ : Fin N) = k :=
        Fin.ext (by show n + (k.val - n) = k.val; omega)
      have := h2 ⟨k.val - n, hb⟩ (Finset.mem_univ _)
      rwa [e] at this

/-! ## The specification -/

/-- The squared distance from point (p, q) of `X` to target `k` of `T`, over the two coordinates. -/
def sqDist (X : (⟨3, ![64, 512, 4]⟩ : Shape).Idx → EReal) (T : (⟨2, ![1024, 2]⟩ : Shape).Idx → EReal)
    (p : Fin 64) (q : Fin 512) (k : Fin 1024) : EReal :=
  (X (ix3 p q 0) - T (ix2 k 0)) * (X (ix3 p q 0) - T (ix2 k 0))
    + (X (ix3 p q 1) - T (ix2 k 1)) * (X (ix3 p q 1) - T (ix2 k 1))

/-- The least squared distance from each point to the targets: an array of shape [64, 512]. -/
def nearest (X : (⟨3, ![64, 512, 4]⟩ : Shape).Idx → EReal) (T : (⟨2, ![1024, 2]⟩ : Shape).Idx → EReal) :
    (⟨2, ![64, 512]⟩ : Shape).Idx → EReal :=
  fun j => Finset.univ.fold min ⊤ (sqDist X T (j 0) (j 1))

/-- The f32 pattern of positive infinity denotes the top element. -/
theorem ofBits_inf : Ideal.ofBits .f32 0x7F800000#32 = (⊤ : EReal) := by simp [Ideal.ofBits, Ideal.ieee]

end Cert.NearestMin

end
-- ==== Proof.Update.lean ====
/-
  One update of the running minimum, read at an index (at the ideal values).

  The kernel body spreads coordinate d of the 8 × 512 points of a block along a new axis of length 256, spreads
  coordinate d of the block's 256 targets along the two point axes, subtracts, squares, adds the two coordinates, takes
  the minimum along the target axis from +∞, and takes the minimum of that with the scratch. Here that text is
  restated in named parts, the parts are tied to the kernel's own update term by definitional unfolding, and each part
  is read at an index:
      update(x, t, acc)[b, r] = min(acc[b, r], min over l < 256 of ((x[b,r,0] - t[l,0])² + (x[b,r,1] - t[l,1])²)),
  the inner minimum folded from the top element.
-/
import proofs.«160160_j43971875176871_1_alg».proof.Proof.Gen.KernelIdeal.Skeleton
import proofs.«160160_j43971875176871_1_alg».proof.Proof.NearestMin
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Acc

open Cert.KernelIdeal Cert.KernelIdeal.Gen

variable {F : FTy → Type} [FloatOps F]

/-! ## The update in named parts -/

/-- One coordinate of a block's points (the slice of the trailing axis at `off`), spread along the target axis. -/
def pointSpread (off : Fin 3 → Nat) (h : S8x512x4.Slices off S8x512x1) (x0 : Vec F S8x512x4 .f32) : FVec F S8x512x256 .f32 :=
  broadcastTo S8x512x256 (shapeCast S8x512x1 (shapeCast S8x512 (extractStridedSlice S8x512x1 off x0 h)
    shapeCasts_S8x512x1_S8x512) shapeCasts_S8x512_S8x512x1) broadcasts_S8x512x1_S8x512x256

/-- One coordinate of a block's targets (the slice of the trailing axis at `off`), spread along the two point axes. -/
def targetSpread (off : Fin 2 → Nat) (h : S256x2.Slices off S256x1) (x1 : Vec F S256x2 .f32) : FVec F S8x512x256 .f32 :=
  broadcastTo S8x512x256 (shapeCast S1x1x256 (shapeCast S256 (extractStridedSlice S256x1 off
    (shapeCast S256x2 x1 shapeCasts_S256x2_S256x2) h) shapeCasts_S256x1_S256) shapeCasts_S256_S1x1x256)
    broadcasts_S1x1x256_S8x512x256

/-- The squared distances from every point of a block to every target of a block. -/
def blockSq (x0 : Vec F S8x512x4 .f32) (x1 : Vec F S256x2 .f32) : FVec F S8x512x256 .f32 :=
  addf
    (mulf (subf (pointSpread ![0, 0, 0] slices_S8x512x4_o0_0_0_S8x512x1 x0) (targetSpread ![0, 0] slices_S256x2_o0_0_S256x1 x1))
      (subf (pointSpread ![0, 0, 0] slices_S8x512x4_o0_0_0_S8x512x1 x0) (targetSpread ![0, 0] slices_S256x2_o0_0_S256x1 x1)))
    (mulf (subf (pointSpread ![0, 0, 1] slices_S8x512x4_o0_0_1_S8x512x1 x0) (targetSpread ![0, 1] slices_S256x2_o0_1_S256x1 x1))
      (subf (pointSpread ![0, 0, 1] slices_S8x512x4_o0_0_1_S8x512x1 x0) (targetSpread ![0, 1] slices_S256x2_o0_1_S256x1 x1)))

/-- The kernel's update term is the minimum of the scratch with the block's minimum along the target axis. -/
theorem update_eq (x0 : Vec F S8x512x4 .f32) (x1 : Vec F S256x2 .f32) (acc : Vec F S8x512 .f32) :
    k0_pay2 x0 x1 acc
      = shapeCast S8x512 (minimumf acc (multiReduction .minimumf [2] S8x512 (blockSq x0 x1) 0x7F800000#32
          reduces_S8x512x256_S8x512 (.inl rfl) rfl)) shapeCasts_S8x512_S8x512 := rfl

/-- The reset value is the block of +∞ patterns. -/
theorem reset_eq : k0_pay1 (F := F) = broadcast S8x512 (Scalar.ofBits .f32 0x7F800000#32) :=
  shapeCast_self _ _

/-! ## The parts read at an index -/

/-- A point coordinate spread along the target axis reads the point's coordinate, whatever the target. -/
theorem pointSpread_apply (off : Fin 3 → Nat) (d : Fin 4) (hoff : off = ![0, 0, d.val]) (h : S8x512x4.Slices off S8x512x1)
    (x0 : Vec F S8x512x4 .f32) (b : Fin 8) (r : Fin 512) (l : Fin 256) :
    pointSpread off h x0 (ix3 b r l) = x0 (ix3 b r d) := by
  subst hoff
  unfold pointSpread
  rw [shapeCast_shapeCast]
  refine (broadcastTo_apply _ broadcasts_S8x512x1_S8x512x256 (ix3 b r l) (ix3 b r (0 : Fin 1)) (fun a => match a with
    | ⟨0, _⟩ => by show b.val = if (8 : Nat) = 1 then 0 else b.val; rw [if_neg (by decide)]
    | ⟨1, _⟩ => by show r.val = if (512 : Nat) = 1 then 0 else r.val; rw [if_neg (by decide)]
    | ⟨2, _⟩ => by show 0 = if (1 : Nat) = 1 then 0 else l.val; rw [if_pos rfl])).trans ?_
  exact extractStridedSlice_apply _ x0 h (ix3 b r (0 : Fin 1)) (ix3 b r d) (fun a => match a with
    | ⟨0, _⟩ => by show b.val = 0 + b.val; omega
    | ⟨1, _⟩ => by show r.val = 0 + r.val; omega
    | ⟨2, _⟩ => by show d.val = d.val + 0; omega)

/-- A target coordinate spread along the point axes reads the target's coordinate, whatever the point. -/
theorem targetSpread_apply (off : Fin 2 → Nat) (d : Fin 2) (hoff : off = ![0, d.val]) (h : S256x2.Slices off S256x1)
    (x1 : Vec F S256x2 .f32) (b : Fin 8) (r : Fin 512) (l : Fin 256) :
    targetSpread off h x1 (ix3 b r l) = x1 (ix2 l d) := by
  subst hoff
  unfold targetSpread
  rw [shapeCast_self]
  refine (broadcastTo_apply _ broadcasts_S1x1x256_S8x512x256 (ix3 b r l) (ix3 (0 : Fin 1) (0 : Fin 1) l) (fun a => match a with
    | ⟨0, _⟩ => by show 0 = if (1 : Nat) = 1 then 0 else b.val; rw [if_pos rfl]
    | ⟨1, _⟩ => by show 0 = if (1 : Nat) = 1 then 0 else r.val; rw [if_pos rfl]
    | ⟨2, _⟩ => by show l.val = if (256 : Nat) = 1 then 0 else l.val; rw [if_neg (by decide)])).trans ?_
  refine (shapeCast_apply _ shapeCasts_S256_S1x1x256 (ix3 (0 : Fin 1) (0 : Fin 1) l) (ix1 l) (by
    rw [Shape.rowMajor_val_one, Shape.rowMajor_val_three]
    show l.val = (0 * 1 + 0) * 256 + l.val
    omega)).trans ?_
  refine (shapeCast_apply _ shapeCasts_S256x1_S256 (ix1 l) (ix2 l (0 : Fin 1)) (by
    rw [Shape.rowMajor_val_two, Shape.rowMajor_val_one]
    show l.val * 1 + 0 = l.val
    omega)).trans ?_
  exact extractStridedSlice_apply _ x1 h (ix2 l (0 : Fin 1)) (ix2 l d) (fun a => match a with
    | ⟨0, _⟩ => by show l.val = 0 + l.val; omega
    | ⟨1, _⟩ => by show d.val = d.val + 0; omega)

/-- The squared distance from point (b, r) of a block of points to target l of a block of targets. -/
def blockDist (x0 : (⟨3, ![8, 512, 4]⟩ : Shape).Idx → EReal) (x1 : (⟨2, ![256, 2]⟩ : Shape).Idx → EReal)
    (b : Fin 8) (r : Fin 512) (l : Fin 256) : EReal :=
  (x0 (ix3 b r 0) - x1 (ix2 l 0)) * (x0 (ix3 b r 0) - x1 (ix2 l 0))
    + (x0 (ix3 b r 1) - x1 (ix2 l 1)) * (x0 (ix3 b r 1) - x1 (ix2 l 1))

/-- The block of squared distances, read at an index. -/
theorem blockSq_apply (x0 : Vec Ideal S8x512x4 .f32) (x1 : Vec Ideal S256x2 .f32) (b : Fin 8) (r : Fin 512) (l : Fin 256) :
    blockSq (F := Ideal) x0 x1 (ix3 b r l) = blockDist x0 x1 b r l := by
  unfold blockSq blockDist
  rw [addf_apply, mulf_apply, mulf_apply, subf_apply, subf_apply,
    pointSpread_apply ![0, 0, 0] 0 rfl, pointSpread_apply ![0, 0, 1] 1 rfl,
    targetSpread_apply ![0, 0] 0 rfl, targetSpread_apply ![0, 1] 1 rfl]

/-- A `multi_reduction <minimumf>` over one axis, at the ideal values: the fold of `min` from the accumulator's value
    over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- THE UPDATE AT AN INDEX: the scratch's entry against the least squared distance to the block's targets. -/
theorem update_apply (x0 : Vec Ideal S8x512x4 .f32) (x1 : Vec Ideal S256x2 .f32) (acc : Vec Ideal S8x512 .f32)
    (b : Fin 8) (r : Fin 512) :
    k0_pay2 (F := Ideal) x0 x1 acc (ix2 b r)
      = min (acc (ix2 b r)) (Finset.univ.fold min ⊤ fun l : Fin 256 => blockDist x0 x1 b r l) := by
  rw [update_eq, shapeCast_self]
  refine (minimumf_apply _ _ _).trans (congrArg (min (acc (ix2 b r))) ?_)
  refine (multiReduction_minimumf_single _ _ reduces_S8x512x256_S8x512 _ _ (ix2 b r)).trans ?_
  show (Finset.univ : Finset (Fin 256)).fold min (Ideal.ofBits .f32 0x7F800000#32) _ = _
  rw [Cert.NearestMin.ofBits_inf]
  refine Finset.fold_congr fun l _ => ?_
  have e : reduces_S8x512x256_S8x512.lift (ix2 b r) l = ix3 b r l :=
    funext fun a => Fin.ext (by match a with | ⟨0, _⟩ => rfl | ⟨1, _⟩ => rfl | ⟨2, _⟩ => rfl)
  show blockSq (F := Ideal) x0 x1 (reduces_S8x512x256_S8x512.lift (ix2 b r) l) = _
  rw [e, blockSq_apply]

/-- The reset block at an index is the top element. -/
theorem reset_apply (j : S8x512.Idx) : k0_pay1 (F := Ideal) j = (⊤ : EReal) := by
  rw [reset_eq]
  exact Cert.NearestMin.ofBits_inf

end Cert.KernelIdeal.Acc

end
-- ==== Proof.Blocks.lean ====
/-
  The blocks the kernel sees at a grid point, as parts of the two arrays.

  The grid has 8 × 4 points, the second coordinate moving fastest: point t works on rows 8·(t / 4) … 8·(t / 4) + 7 of
  the point array (a block of shape [8, 512, 4]) and on targets 256·(t mod 4) … 256·(t mod 4) + 255 of the target
  array (a block of shape [256, 2]). Entry (b, r, d) of the point block is entry (8·(t / 4) + b, r, d) of the array,
  and entry (l, d) of the target block is entry (256·(t mod 4) + l, d) of the array.
-/
import proofs.«160160_j43971875176871_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Acc

open Cert.KernelIdeal Cert.KernelIdeal.Gen

variable {F : FTy → Type} [FloatOps F]
variable (m : (ℓ : Loc nD τ sig) → Buf (Elt F) ℓ)

/-- The point window's block index at point t is (t / 4, 0, 0); -/
theorem pointIndex : ∀ t : Fin cfg0.N, win0_0.index t (0 : Fin 3) = t.val / 4 ∧ win0_0.index t (1 : Fin 3) = 0 ∧ win0_0.index t (2 : Fin 3) = 0 :=
  (by decide +kernel : ∀ t : Fin grid0.N, _)
/-- the target window's is (t mod 4, 0). -/
theorem targetIndex : ∀ t : Fin cfg0.N, win0_1.index t (0 : Fin 2) = t.val % 4 ∧ win0_1.index t (1 : Fin 2) = 0 :=
  (by decide +kernel : ∀ t : Fin grid0.N, _)

/-- The two arrays as the kernel region finds them, and the two blocks at a point, at their literal shapes. -/
abbrev pointArr (c : Dev nD) : Vec F S64x512x4 .f32 := V m c main_arg0
abbrev targetArr (c : Dev nD) : Vec F S1024x2 .f32 := V m c main_v43
abbrev pointBlk (c : Dev nD) (t : Fin cfg0.N) : Vec F S8x512x4 .f32 := iblk m c 0 t
abbrev targetBlk (c : Dev nD) (t : Fin cfg0.N) : Vec F S256x2 .f32 := iblk m c 1 t

/-- An entry of the point block is the array's entry 8·(t / 4) rows further down. -/
theorem pointBlk_apply (c : Dev nD) (t : Fin cfg0.N) (b : Fin 8) (r : Fin 512) (d : Fin 4) (p : Fin 64)
    (hp : p.val = 8 * (t.val / 4) + b.val) :
    pointBlk m c t (ix3 b r d) = pointArr m c (ix3 p r d) := by
  unfold pointBlk pointArr iblk
  rw [View.read_apply]
  show V m c main_arg0 (((cfg0.win 0).blk t).view.emb (ix3 b r d)) = V m c main_arg0 (ix3 p r d)
  refine congrArg (V m c main_arg0) (funext fun a => Fin.ext ?_)
  match a with
  | ⟨0, _⟩ => show win0_0.index t 0 * 8 + 1 * b.val = p.val; rw [(pointIndex t).1, hp]; omega
  | ⟨1, _⟩ => show win0_0.index t 1 * 512 + 1 * r.val = r.val; rw [(pointIndex t).2.1]; omega
  | ⟨2, _⟩ => show win0_0.index t 2 * 4 + 1 * d.val = d.val; rw [(pointIndex t).2.2]; omega

/-- An entry of the target block is the array's entry 256·(t mod 4) targets further down. -/
theorem targetBlk_apply (c : Dev nD) (t : Fin cfg0.N) (l : Fin 256) (d : Fin 2) (k : Fin 1024)
    (hk : k.val = 256 * (t.val % 4) + l.val) :
    targetBlk m c t (ix2 l d) = targetArr m c (ix2 k d) := by
  unfold targetBlk targetArr iblk
  rw [View.read_apply]
  show V m c main_v43 (((cfg0.win 1).blk t).view.emb (ix2 l d)) = V m c main_v43 (ix2 k d)
  refine congrArg (V m c main_v43) (funext fun a => Fin.ext ?_)
  match a with
  | ⟨0, _⟩ => show win0_1.index t 0 * 256 + 1 * l.val = k.val; rw [(targetIndex t).1, hk]; omega
  | ⟨1, _⟩ => show win0_1.index t 1 * 2 + 1 * d.val = d.val; rw [(targetIndex t).2]; omega

end Cert.KernelIdeal.Acc

end
-- ==== Proof.Running.lean ====
/-
  The running minimum, point by point.

  Grid point t (row group t / 4, target block t mod 4) leaves in the scratch block, at entry (b, r), the least squared
  distance from point (8·(t / 4) + b, r) to the targets 0 … 256·(t mod 4) + 255: the first point of a row group starts
  from +∞ (the minimum over no target), every point extends the segment of targets seen so far by its own block of
  256, and the law for extending a segment (NearestMin) says the running minimum is the minimum over the longer
  segment. At the last point of a row group the segment is all 1024 targets, and the output block receives the
  nearest-point squared distance of its eight rows.
-/
import proofs.«160160_j43971875176871_1_alg».proof.Proof.Pieces
import proofs.«160160_j43971875176871_1_alg».proof.Proof.Update
import proofs.«160160_j43971875176871_1_alg».proof.Proof.Blocks
import proofs.«160160_j43971875176871_1_alg».proof.Proof.NearestMin

noncomputable section

open Idealize.ShloMosaic Idealize.ShloMosaic.TcCoe Idealize.SL.Sem Idealize.ShloMosaic.ValueIdx

namespace Cert.KernelIdeal.Acc

open Cert.KernelIdeal Cert.KernelIdeal.Gen Cert.NearestMin

variable (m : (ℓ : Loc nD τ sig) → Buf (Elt Ideal) ℓ)

/-- The row of the point array under row b of point t's block. -/
def rowOf (t : Fin cfg0.N) (b : Fin 8) : Fin 64 :=
  ⟨8 * (t.val / 4) + b.val, by have := t.isLt; have hN : cfg0.N = 32 := N_0; have := b.isLt; omega⟩

/-- The squared distances from one point of the array to all 1024 targets. -/
abbrev distFrom (c : Dev nD) (p : Fin 64) (r : Fin 512) : Fin 1024 → EReal :=
  sqDist (pointArr m c) (targetArr m c) p r

/-- A squared distance inside the blocks of point t is the squared distance in the arrays, 256·(t mod 4) targets on. -/
theorem blockDist_eq (c : Dev nD) (t : Fin cfg0.N) (b : Fin 8) (r : Fin 512) (l : Fin 256) :
    blockDist (pointBlk m c t) (targetBlk m c t) b r l
      = distFrom m c (rowOf t b) r ⟨256 * (t.val % 4) + l.val, by have := l.isLt; omega⟩ := by
  unfold blockDist
  show _ = sqDist (pointArr m c) (targetArr m c) (rowOf t b) r ⟨256 * (t.val % 4) + l.val, by have := l.isLt; omega⟩
  unfold sqDist
  rw [pointBlk_apply m c t b r 0 (rowOf t b) rfl, pointBlk_apply m c t b r 1 (rowOf t b) rfl,
    targetBlk_apply m c t l 0 ⟨256 * (t.val % 4) + l.val, by have := l.isLt; omega⟩ rfl,
    targetBlk_apply m c t l 1 ⟨256 * (t.val % 4) + l.val, by have := l.isLt; omega⟩ rfl]

/-- ONE STEP: if the scratch entry is the minimum over the targets before point t's block, the update makes it the
    minimum over the targets up to the end of that block. -/
theorem step (c : Dev nD) (t : Fin cfg0.N) (acc : Vec Ideal S8x512 .f32) (b : Fin 8) (r : Fin 512)
    (hacc : acc (ix2 b r) = minBelow (distFrom m c (rowOf t b) r) (256 * (t.val % 4))) :
    k0_pay2 (F := Ideal) (pointBlk m c t) (targetBlk m c t) acc (ix2 b r)
      = minBelow (distFrom m c (rowOf t b) r) (256 * (t.val % 4) + 256) := by
  rw [update_apply, hacc, minBelow_add (distFrom m c (rowOf t b) r) (256 * (t.val % 4)) (by omega : 256 * (t.val % 4) + 256 ≤ 1024)]
  exact congrArg (min _) (Finset.fold_congr fun l _ => blockDist_eq m c t b r l)

/-- A step from the reset block: the minimum over the first block of targets. -/
theorem step_first (c : Dev nD) (t : Fin cfg0.N) (h0 : t.val % 4 = 0) (b : Fin 8) (r : Fin 512) :
    k0_pay2 (F := Ideal) (pointBlk m c t) (targetBlk m c t) (k0_pay1 (F := Ideal)) (ix2 b r)
      = minBelow (distFrom m c (rowOf t b) r) (256 * (t.val % 4) + 256) :=
  step m c t _ b r (by rw [reset_apply, h0]; exact (minBelow_zero _).symm)

/-- THE INVARIANT: what the scratch holds after the point at position n. -/
theorem scratch_after (c : Dev nD) : ∀ (n : ℕ) (h : n < cfg0.N) (b : Fin 8) (r : Fin 512),
    (outsAt0 m c n h).2 (ix2 b r) = minBelow (distFrom m c (rowOf ⟨n, h⟩ b) r) (256 * (n % 4) + 256)
  | 0, h, b, r => by
    have h0 : (⟨0, h⟩ : Fin cfg0.N).val % 4 = 0 := rfl
    have h1 : ¬(⟨0, h⟩ : Fin cfg0.N).val % 4 = 3 := by show ¬(0 % 4 = 3); decide
    rw [outsAt0_A m c ⟨0, h⟩ h0 h1]
    dsimp only
    refine (congrFun (scratch_first (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) ((hcond0_0 ⟨0, h⟩).mpr h0) (fun hh => h1 ((hcond0_1 ⟨0, h⟩).mp hh))
      (iblk m c 0 ⟨0, h⟩) (iblk m c 1 ⟨0, h⟩)) (ix2 b r)).trans ?_
    exact step_first m c ⟨0, h⟩ h0 b r
  | n + 1, h, b, r => by
    have hN : cfg0.N = 32 := N_0
    by_cases h0 : (⟨n + 1, h⟩ : Fin cfg0.N).val % 4 = 0
    · have h1 : ¬(⟨n + 1, h⟩ : Fin cfg0.N).val % 4 = 3 := by omega
      rw [outsAt0_A m c ⟨n + 1, h⟩ h0 h1]
      dsimp only
      refine (congrFun (scratch_first (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) ((hcond0_0 ⟨n + 1, h⟩).mpr h0) (fun hh => h1 ((hcond0_1 ⟨n + 1, h⟩).mp hh))
        (iblk m c 0 ⟨n + 1, h⟩) (iblk m c 1 ⟨n + 1, h⟩)) (ix2 b r)).trans ?_
      exact step_first m c ⟨n + 1, h⟩ h0 b r
    · have hprev : (outsAt0 m c n (Nat.lt_of_succ_lt h)).2 (ix2 b r)
          = minBelow (distFrom m c (rowOf ⟨n + 1, h⟩ b) r) (256 * ((⟨n + 1, h⟩ : Fin cfg0.N).val % 4)) := by
        rw [scratch_after c n (Nat.lt_of_succ_lt h) b r]
        have e : rowOf ⟨n, Nat.lt_of_succ_lt h⟩ b = rowOf ⟨n + 1, h⟩ b :=
          Fin.ext (by show 8 * (n / 4) + b.val = 8 * ((n + 1) / 4) + b.val; have : (n + 1) % 4 ≠ 0 := h0; omega)
        rw [e]
        exact congrArg _ (by show 256 * (n % 4) + 256 = 256 * ((n + 1) % 4); have : (n + 1) % 4 ≠ 0 := h0; omega)
      by_cases h1 : (⟨n + 1, h⟩ : Fin cfg0.N).val % 4 = 3
      · rw [outsAt0_C m c ⟨n + 1, h⟩ h0 h1]
        dsimp only
        refine (congrFun (scratch_last (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1)
          (iblk m c 0 ⟨n + 1, h⟩) (iblk m c 1 ⟨n + 1, h⟩) (outsAt0 m c n (Nat.lt_of_succ_lt h)).2) (ix2 b r)).trans ?_
        exact step m c ⟨n + 1, h⟩ _ b r hprev
      · rw [outsAt0_B m c ⟨n + 1, h⟩ h0 h1]
        dsimp only
        refine (congrFun (scratch_mid (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun hh => h0 ((hcond0_0 ⟨n + 1, h⟩).mp hh)) (fun hh => h1 ((hcond0_1 ⟨n + 1, h⟩).mp hh))
          (iblk m c 0 ⟨n + 1, h⟩) (iblk m c 1 ⟨n + 1, h⟩) (outsAt0 m c n (Nat.lt_of_succ_lt h)).2) (ix2 b r)).trans ?_
        exact step m c ⟨n + 1, h⟩ _ b r hprev

/-- THE OUTPUT BLOCK at the last point of a row group: the nearest-point squared distance of its rows. -/
theorem out_after (c : Dev nD) (t : Fin cfg0.N) (h1 : t.val % 4 = 3) (b : Fin 8) (r : Fin 512) :
    (outsAt0 m c t.val t.isLt).1 (ix2 b r) = nearest (pointArr m c) (targetArr m c) (ix2 (rowOf t b) r) := by
  have hN : cfg0.N = 32 := N_0
  have h0 : ¬t.val % 4 = 0 := by omega
  obtain ⟨n, h⟩ := t
  cases n with
  | zero => exact absurd h1 (by show ¬(0 % 4 = 3); decide)
  | succ n =>
    have hprev : (outsAt0 m c n (Nat.lt_of_succ_lt h)).2 (ix2 b r)
        = minBelow (distFrom m c (rowOf ⟨n + 1, h⟩ b) r) (256 * ((⟨n + 1, h⟩ : Fin cfg0.N).val % 4)) := by
      rw [scratch_after m c n (Nat.lt_of_succ_lt h) b r]
      have e : rowOf ⟨n, Nat.lt_of_succ_lt h⟩ b = rowOf ⟨n + 1, h⟩ b :=
        Fin.ext (by show 8 * (n / 4) + b.val = 8 * ((n + 1) / 4) + b.val; have : (n + 1) % 4 = 3 := h1; omega)
      rw [e]
      exact congrArg _ (by show 256 * (n % 4) + 256 = 256 * ((n + 1) % 4); have : (n + 1) % 4 = 3 := h1; omega)
    rw [outsAt0_C m c ⟨n + 1, h⟩ h0 h1]
    dsimp only
    refine (congrFun (out_last (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1)
      (iblk m c 0 ⟨n + 1, h⟩) (iblk m c 1 ⟨n + 1, h⟩) (outsAt0 m c n (Nat.lt_of_succ_lt h)).2) (ix2 b r)).trans ?_
    refine (step m c ⟨n + 1, h⟩ _ b r hprev).trans ?_
    have e4 : 256 * ((⟨n + 1, h⟩ : Fin cfg0.N).val % 4) + 256 = 1024 := by
      show 256 * ((n + 1) % 4) + 256 = 1024
      have : (n + 1) % 4 = 3 := h1
      omega
    rw [e4, minBelow_all]
    rfl

end Cert.KernelIdeal.Acc

end
-- ==== Proof.Final.lean ====
/-
  The output array after the kernel region.

  The output window has blocks of shape [8, 512]; the block of row group g is written back once, after the last of
  the group's four grid points (point 4·g + 3), and then holds the nearest-point squared distances of rows
  8·g … 8·g + 7. The eight blocks tile the [64, 512] array — row i lies in the block of row group i / 8 — so after the
  region the whole array is the nearest-point squared distance of the two arrays, entry by entry.
-/
import proofs.«160160_j43971875176871_1_alg».proof.Proof.Running
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.NearestMin

variable (m : (ℓ : Loc nD τ sig) → Buf (Elt Ideal) ℓ)

/-- The output window's block index at point t is (t / 4, 0). -/
theorem outIndex : ∀ t : Fin cfg0.N, win0_2.index t (0 : Fin 2) = t.val / 4 ∧ win0_2.index t (1 : Fin 2) = 0 :=
  (by decide +kernel : ∀ t : Fin grid0.N, _)

/-- What a copying point writes back is its block of the nearest-point squared distances. -/
theorem flushed_eq (c : Dev nD) (t : Fin cfg0.N) (hf : (cfg0.win 2).flush t = true) :
    (dats m 0 c).flushed 2 t = ((cfg0.win 2).blk t).view.read (Elt Ideal) (nearest (pointArr m c) (targetArr m c)) := by
  have h3 : t.val % 4 = 3 := (flush0_2 t).mp hf
  show (cfg0.win 2).cut (grid0.coords t) ((dats m 0 c).after 2 t) = _
  rw [after0_2]
  funext y
  obtain ⟨b, r, rfl⟩ : ∃ (b : Fin 8) (r : Fin 512), y = ix2 b r := ⟨y 0, y 1, eq_ix2 y⟩
  show (outsAt0 m c t.val t.isLt).1 (ix2 b r)
    = nearest (pointArr m c) (targetArr m c) (((cfg0.win 2).blk t).view.emb (ix2 b r))
  rw [out_after m c t h3 b r]
  refine congrArg (nearest (pointArr m c) (targetArr m c)) (funext fun a => Fin.ext ?_)
  match a with
  | ⟨0, _⟩ => show 8 * (t.val / 4) + b.val = win0_2.index t 0 * 8 + 1 * b.val; rw [(outIndex t).1]; omega
  | ⟨1, _⟩ => show r.val = win0_2.index t 1 * 512 + 1 * r.val; rw [(outIndex t).2]; omega

/-- An index of the output array is in point t's block iff each coordinate is in the block's range on its axis. -/
theorem mem_outBlk (t : Fin cfg0.N) (i : S64x512.Idx) :
    i ∈ ((cfg0.win 2).blk t).view.set
      ↔ ∀ a : Fin 2, win0_2.index t a * S8x512.size a ≤ (i a).val ∧ (i a).val < win0_2.index t a * S8x512.size a + S8x512.size a := by
  show i ∈ ((View.whole main_v44).slice (win0_2.rect t)).set ↔ _
  rw [View.set_slice_whole, Rect.mem_set_unit]
  exact Iff.rfl

/-- Every index of the output array lies in the block some copying point writes back. -/
theorem covered (i : S64x512.Idx) : ∃ t : Fin cfg0.N, (cfg0.win 2).flush t = true ∧ i ∈ ((cfg0.win 2).blk t).view.set := by
  have hi0 : (i 0).val < 64 := (i 0).isLt
  have hi1 : (i 1).val < 512 := (i 1).isLt
  have hN : cfg0.N = 32 := N_0
  refine ⟨⟨4 * ((i 0).val / 8) + 3, by omega⟩, (flush0_2 _).mpr (by show (4 * ((i 0).val / 8) + 3) % 4 = 3; omega), ?_⟩
  rw [mem_outBlk]
  intro a
  match a with
  | ⟨0, _⟩ =>
    show win0_2.index ⟨4 * ((i 0).val / 8) + 3, _⟩ 0 * 8 ≤ (i 0).val ∧ (i 0).val < win0_2.index ⟨4 * ((i 0).val / 8) + 3, _⟩ 0 * 8 + 8
    rw [(outIndex _).1]
    show (4 * ((i 0).val / 8) + 3) / 4 * 8 ≤ (i 0).val ∧ (i 0).val < (4 * ((i 0).val / 8) + 3) / 4 * 8 + 8
    omega
  | ⟨1, _⟩ =>
    show win0_2.index ⟨4 * ((i 0).val / 8) + 3, _⟩ 1 * 512 ≤ (i 1).val ∧ (i 1).val < win0_2.index ⟨4 * ((i 0).val / 8) + 3, _⟩ 1 * 512 + 512
    rw [(outIndex _).2]
    omega

/-- THE OUTPUT ARRAY after the region: the nearest-point squared distance of the two arrays as the region finds them. -/
theorem outArr_eq (c : Dev nD) : (dats m 0 c).arrAt 2 cfg0.N = nearest (pointArr m c) (targetArr m c) :=
  (dats m 0 c).arrAt_eq_of_cover 2 (nearest (pointArr m c) (targetArr m c)) (flushed_eq m c) (fun i => covered i)

end Cert.KernelIdeal.Acc

end
-- ==== Proof.RefNearest.lean ====
/-
  The reference's side of the nearest-point distance.

  The reference program forms, for every point (p, q), every target k and each of the two coordinates d, the
  difference X[p,q,d] - T[k,d] (both arrays broadcast to a common shape [64, 512, 1024, 2]), squares it, adds the two
  squares over d (a sum from zero) and takes the minimum over k (a fold of the minimum from +infinity). Here each of
  these array operations is read at one index, down to the two arrays, so that the value reduced over k is seen to be
  the squared distance of the specification and the whole result its least value over the 1024 targets. The target
  array T is itself a computed one (a stage of the reference); nothing about it is used, so it stays a name.
-/
import proofs.«160160_j43971875176871_1_alg».proof.Proof.Gen.ReferenceIdeal.Read
import proofs.«160160_j43971875176871_1_alg».proof.Proof.NearestMin
import Idealize.ShloMosaic.PureOps.Reduce
import Idealize.ShloMosaic.PureOps.Ideal.Laws
import Idealize.ShloMosaic.Lib.ValueIdx

noncomputable section

namespace Cert.RefNearest

open Idealize.ShloMosaic Idealize.ShloMosaic.ValueIdx
open Cert.ReferenceIdeal Cert.ReferenceIdeal.Gen Cert.ReferenceIdeal.Read Cert.NearestMin

/-- The reduced index (p, q) with target k put back on the dropped axis is (p, q, k). -/
theorem lift_ix3 (h : S64x512x1024.Reduces [2] S64x512) (p : Fin 64) (q : Fin 512) (k : Fin (S64x512x1024.size 2)) :
    h.lift (ix2 p q) k = ix3 p q (⟨k.val, k.isLt⟩ : Fin 1024) := by
  funext c
  apply Fin.ext
  match c with
  | ⟨0, _⟩ => rfl
  | ⟨1, _⟩ => rfl
  | ⟨2, _⟩ => rfl

/-- One squared difference: the entry of the squared array at point (p, q), target k, coordinate d is the square of
    X[p,q,d] - T[k,d]. The point array is read through a slice and two broadcasts, the target array through two
    broadcasts; the composed index maps are the evident coordinate maps. -/
theorem sq_read (x0 : (⟨S64x512x4, .f32⟩ : BufTy).Contents (Elt Ideal)) (x1 : (⟨S1024x2, .f32⟩ : BufTy).Contents (Elt Ideal))
    (p : Fin 64) (q : Fin 512) (k : Fin 1024) (d : Fin 2) :
    val_main_v50 (F := Ideal) x0 x1 (idx_main_v51 (ix3 p q k) d)
      = (x0 (ix3 p q (⟨d.val, by have := d.isLt; omega⟩ : Fin 4)) - val_main_v43 (F := Ideal) x1 (ix2 k d))
        * (x0 (ix3 p q (⟨d.val, by have := d.isLt; omega⟩ : Fin 4)) - val_main_v43 (F := Ideal) x1 (ix2 k d)) := by
  have hX : idx_main_v44 (idx_main_v45 (idx_main_v47 (idx_main_v51 (ix3 p q k) d)))
      = ix3 p q (⟨d.val, by have := d.isLt; omega⟩ : Fin 4) :=
    funext fun a => Fin.ext (by match a with | ⟨0, _⟩ => rfl | ⟨1, _⟩ => rfl | ⟨2, _⟩ => rfl)
  have hT : idx_main_v46 (idx_main_v48 (idx_main_v51 (ix3 p q k) d)) = ix2 k d :=
    funext fun a => Fin.ext (by match a with | ⟨0, _⟩ => rfl | ⟨1, _⟩ => rfl)
  rw [val_main_v50_apply, val_main_v49_apply, val_main_v47_apply, val_main_v45_apply, val_main_v44_apply,
    val_main_v48_apply, val_main_v46_apply, hX, hT]
  generalize val_main_v43 (F := Ideal) x1 = y
  rfl

/-- The array reduced over the targets, at (p, q, k), is the squared distance from point (p, q) to target k. -/
theorem dist_read (x0 : (⟨S64x512x4, .f32⟩ : BufTy).Contents (Elt Ideal)) (x1 : (⟨S1024x2, .f32⟩ : BufTy).Contents (Elt Ideal))
    (p : Fin 64) (q : Fin 512) (k : Fin 1024) :
    val_main_v51 (F := Ideal) x0 x1 (ix3 p q k) = sqDist x0 (val_main_v43 (F := Ideal) x1) p q k := by
  rw [val_main_v51_apply, Fin.sum_univ_two, sq_read, sq_read, val_main_cst_8_apply, Ideal.ofBits_def,
    Ideal.ofBits_zero_f32, zero_add]
  generalize val_main_v43 (F := Ideal) x1 = y
  rfl

/-- The reference's reduce-min over the targets is the least squared distance of the specification. -/
theorem ref_nearest (x0 : (⟨Cert.ReferenceIdeal.S64x512x4, .f32⟩ : BufTy).Contents (Elt Ideal))
    (x1 : (⟨Cert.ReferenceIdeal.S1024x2, .f32⟩ : BufTy).Contents (Elt Ideal)) :
    Cert.ReferenceIdeal.Read.val_main_v52 (F := Ideal) x0 x1
      = Cert.NearestMin.nearest x0 (Cert.ReferenceIdeal.Read.val_main_v43 (F := Ideal) x1) := by
  have h : S64x512x1024.Reduces [2] S64x512 := by decide
  funext j
  obtain ⟨p, q, rfl⟩ : ∃ p q, j = ix2 p q := ⟨j 0, j 1, eq_ix2 j⟩
  unfold val_main_v52
  refine (Host.reduce_eq_fold_single FloatOps.minimumf _ _ reducesTo_S64x512x1024_S64x512_d2 h h_S_ (ix2 p q)).trans ?_
  have hf : (val_main_v51 (F := Ideal) x0 x1 ∘ h.lift (ix2 p q))
      = fun k => sqDist x0 (val_main_v43 (F := Ideal) x1) p q ⟨k.val, k.isLt⟩ :=
    funext fun k => by
      show val_main_v51 (F := Ideal) x0 x1 (h.lift (ix2 p q) k) = _
      rw [lift_ix3 h p q k, dist_read]
  rw [hf]
  generalize val_main_v43 (F := Ideal) x1 = y
  show Finset.fold (min : EReal → EReal → EReal) (Ideal.ofBits .f32 0x7F800000#32) (sqDist x0 y p q) Finset.univ
    = Finset.fold min ⊤ (sqDist x0 y p q) Finset.univ
  rw [ofBits_inf]

end Cert.RefNearest

end
-- ==== Proof.Bridge.lean ====
/-
  The host operations the two programs share, around the part where they differ.

  Before the kernel region both programs build the augmented target array from the second argument by the same
  chain of host operations, and after it both turn the [64, 512] array of least squared distances into one number
  by the same chain: drop the first column, sum each row from zero, divide by 511, sum the 64 quotients from zero.
  Neither chain is ever read: the first is identified, operation for operation, with the reference's stage of the
  same name, and the second is wrapped in one function applied to whatever [64, 512] array precedes it.
-/
import proofs.«160160_j43971875176871_1_alg».proof.Proof.Gen.KernelIdeal.Frame
import proofs.«160160_j43971875176871_1_alg».proof.Proof.Gen.ReferenceIdeal.Read
import Idealize.ShloMosaic.Lib.StableHlo.Run
import Idealize.ShloMosaic.Lib.Pipeline.FrameSuffix

noncomputable section

namespace Cert.Bridge

open Idealize.ShloMosaic Idealize.ShloMosaic.TcCoe Idealize.SL.Sem Idealize.ShloMosaic.StableHlo

/-! ## The head: the augmented targets -/

/-- The array the kernel region finds in its target window is the reference's augmented-target stage of the launch
    contents of the second argument: the same operations in the same order. -/
theorem target_same (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v43 : Cert.KernelIdeal.S1024x2.Idx → Ideal .f32)
      = Cert.ReferenceIdeal.Read.val_main_v43 (F := Ideal)
          (m ((c.tc : Thread Cert.KernelIdeal.nD Cert.KernelIdeal.τ).loc Cert.KernelIdeal.main_arg1)) := by
  dsimp only [Cert.KernelIdeal.Gen.V, Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7, Cert.KernelIdeal.Gen.hostOps0_8,
    Cert.KernelIdeal.Gen.hostOps0_9, List.flatten_cons, List.flatten_nil, List.append_nil, List.cons_append,
    List.nil_append]
  after_results_simp
  rfl

/-! ## The tail: from the least squared distances to the loss -/

/-- The mean over the points of each row but its first, summed over the rows: the slice [0:64, 1:512], the row sums
    from zero, their quotients by 511, and the sum of the quotients from zero. -/
def lossOf (d : (⟨Cert.ReferenceIdeal.S64x512, .f32⟩ : BufTy).Contents (Elt Ideal)) :
    (⟨Cert.ReferenceIdeal.S_, .f32⟩ : BufTy).Contents (Elt Ideal) :=
  Host.reduceAdd (F := Ideal)
    (Host.divf (F := Ideal)
      (Host.reduceAdd (F := Ideal)
        (extractStridedSlice Cert.ReferenceIdeal.S64x511 ![0, 1] d Cert.ReferenceIdeal.Gen.slices_S64x512_S64x511_0_1)
        (constant (F := Ideal) Cert.ReferenceIdeal.S_ .f32 0x00000000#32)
        Cert.ReferenceIdeal.Gen.reducesTo_S64x511_S64_d1 Cert.ReferenceIdeal.Gen.h_S_)
      (broadcastInDim Cert.ReferenceIdeal.S64 ![] Cert.ReferenceIdeal.Gen.bcast_S_S64
        (constant (F := Ideal) Cert.ReferenceIdeal.S_ .f32 0x43FF8000#32)))
    (constant (F := Ideal) Cert.ReferenceIdeal.S_ .f32 0x00000000#32)
    Cert.ReferenceIdeal.Gen.reducesTo_S64_S_d0 Cert.ReferenceIdeal.Gen.h_S_

/-- The reference's result is that function of its reduce-min stage. -/
theorem ref_loss (x0 : (⟨Cert.ReferenceIdeal.S64x512x4, .f32⟩ : BufTy).Contents (Elt Ideal))
    (x1 : (⟨Cert.ReferenceIdeal.S1024x2, .f32⟩ : BufTy).Contents (Elt Ideal)) :
    Cert.ReferenceIdeal.Read.val_main_v57 (F := Ideal) x0 x1
      = lossOf (Cert.ReferenceIdeal.Read.val_main_v52 (F := Ideal) x0 x1) := by
  generalize hd : Cert.ReferenceIdeal.Read.val_main_v52 (F := Ideal) x0 x1 = d
  unfold Cert.ReferenceIdeal.Read.val_main_v57 Cert.ReferenceIdeal.Read.val_main_v56 Cert.ReferenceIdeal.Read.val_main_v55
    Cert.ReferenceIdeal.Read.val_main_v54 Cert.ReferenceIdeal.Read.val_main_v53 Cert.ReferenceIdeal.Read.val_main_cst_10
    Cert.ReferenceIdeal.Read.val_main_cst_11 Cert.ReferenceIdeal.Read.val_main_cst_12 lossOf
  rw [hd]

/-- The kernel program's result is the same function of the array the region leaves in its output window. -/
theorem kernel_loss (m : (ℓ : Loc Cert.KernelIdeal.nD Cert.KernelIdeal.τ Cert.KernelIdeal.sig) → Buf (Elt Ideal) ℓ)
    (c : Dev Cert.KernelIdeal.nD) :
    Idealize.ShloMosaic.Pipeline.afterTail₀ Cert.KernelIdeal.cfgs (Cert.KernelIdeal.Gen.dats m) 0 (Cert.KernelIdeal.Gen.V0 m)
        [Cert.KernelIdeal.Gen.hostOps1] c Cert.KernelIdeal.main_v49
      = lossOf ((Cert.KernelIdeal.Gen.dats m 0 c).arrAt 2 Cert.KernelIdeal.cfg0.N) := by
  unfold Pipeline.afterTail₀
  show StableHlo.after Cert.KernelIdeal.Gen.hostOps1 _ (Proc.devRef .tc Cert.KernelIdeal.main_v49) = _
  after_results
  exact congrArg lossOf
    (Pipeline.withArrays_arr Cert.KernelIdeal.spec0 Cert.KernelIdeal.Gen.launch0.win.arr_inj c (Cert.KernelIdeal.Gen.V0 m c)
      (fun w => (Cert.KernelIdeal.Gen.dats m 0 c).arrAt w (Cert.KernelIdeal.cfgs 0).N) 2)

end Cert.Bridge

end
-- ==== Proof.lean ====
/-
  The certificate's claims.

  Both programs first augment the 1024 targets in the same way (the same host operations of the target array alone),
  then compute, for each of the 64 × 512 points, the least squared distance to the 1024 augmented targets over the two
  coordinates, and finally reduce that [64, 512] array to one number by the same host operations (drop the first
  column, average each row, add the rows). They differ only in how the least squared distance is computed: the
  reference adds the two squared coordinate differences from zero and takes one minimum over all 1024 targets; the
  kernel adds the two directly and keeps a running minimum over four blocks of 256 targets, started at +∞. Over the
  extended reals 0 + u + v is u + v, and a minimum taken block after block is the minimum over all blocks, so the two
  arrays are equal entry by entry, whatever the (possibly infinite) values. No finiteness of the inputs is used.

  The three frame claims are the generated frame runs; the idealization rewrote nothing, so its claim is trivial.
-/
import proofs.«160160_j43971875176871_1_alg».proof.Defs
import proofs.«160160_j43971875176871_1_alg».proof.Proof.Gen.Kernel
import proofs.«160160_j43971875176871_1_alg».proof.Proof.Gen.Kernel.Frame
import proofs.«160160_j43971875176871_1_alg».proof.Proof.Gen.KernelIdeal
import proofs.«160160_j43971875176871_1_alg».proof.Proof.Gen.KernelIdeal.Frame
import proofs.«160160_j43971875176871_1_alg».proof.Proof.Gen.ReferenceIdeal
import proofs.«160160_j43971875176871_1_alg».proof.Proof.Gen.ReferenceIdeal.Run
import proofs.«160160_j43971875176871_1_alg».proof.Proof.Gen.ReferenceIdeal.Read
import proofs.«160160_j43971875176871_1_alg».proof.Proof.Gen.Pre_finite_inputs
import proofs.«160160_j43971875176871_1_alg».proof.Proof.Final
import proofs.«160160_j43971875176871_1_alg».proof.Proof.RefNearest
import proofs.«160160_j43971875176871_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two programs end with the same number: the shared reduction of the nearest-point squared distances of the
    point array and the augmented target array. -/
theorem algebraic : Cert.algebraic_KernelIdeal_ReferenceIdeal := by
  intro m ρ m' ρ' _ hagree
  refine ⟨fun c => Cert.Bridge.lossOf (Cert.NearestMin.nearest
      (m ((c.tc : Thread Cert.KernelIdeal.nD Cert.KernelIdeal.τ).loc Cert.KernelIdeal.main_arg0))
      (Cert.ReferenceIdeal.Read.val_main_v43 (F := Ideal)
        (m ((c.tc : Thread Cert.KernelIdeal.nD Cert.KernelIdeal.τ).loc Cert.KernelIdeal.main_arg1)))), ?_, ?_⟩
  · refine (θ_run Cert.KernelIdeal.defs _ _).mono (fun r h c => ⟨?_, ?_, ?_⟩) (Cert.KernelIdeal.Gen.run_main m ρ)
    · refine ((h c).2 Cert.KernelIdeal.main_v49 (Pipeline.mem_restRefs_of Cert.KernelIdeal.main_v49 (by decide) (by decide))).trans ?_
      refine (Cert.Bridge.kernel_loss m c).trans (congrArg Cert.Bridge.lossOf ?_)
      refine (Cert.KernelIdeal.Acc.outArr_eq m c).trans ?_
      show Cert.NearestMin.nearest (Cert.KernelIdeal.Gen.V m c Cert.KernelIdeal.main_arg0) (Cert.KernelIdeal.Gen.V m c Cert.KernelIdeal.main_v43) = _
      rw [Cert.KernelIdeal.Gen.V_main_arg0 m c, Cert.Bridge.target_same m c]
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun _ h c => ⟨?_, (h c).2.1, (h c).2.2⟩)
      (Cert.ReferenceIdeal.Value.run (F := Ideal) m' ρ')
    rw [(h c).1, Cert.ReferenceIdeal.Read.val_main_v57_eq, Cert.Bridge.ref_loss, Cert.RefNearest.ref_nearest,
      (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
